-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x200 : Shape := ⟨2, ![128, 200]⟩
abbrev S200 : Shape := ⟨1, ![200]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_

variable [Facts]

def fn_part3 {F : FTy → Type} [FloatOps F] (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  main_v53

def fn_part2 {F : FTy → Type} [FloatOps F] (main_arg8 : FVec F S128x200 .f32) (main_arg9 : FVec F S128x200 .f32) (main_arg10 : FVec F S128x200 .f32) (main_arg11 : FVec F S200 .f32) (main_v33 : IVec S_ 1) : IVec S_ 1 :=
  let main_v34 : FVec F S128x200 .f32 := Host.absf main_arg8
  let main_cst_12 : FVec F S_ .f32 := constant S_ .f32 0x7F800000#32
  let main_v35 : FVec F S128x200 .f32 := broadcastInDim S128x200 ![] bcast_S_S128x200 main_cst_12
  let main_v36 : IVec S128x200 1 := cmpf .olt main_v34 main_v35
  let main_c_13 : IVec S_ 1 := constantI S_ 1 1#1
  let main_v37 : IVec S_ 1 := (fun x v => Host.reduce IntOp.andi x v reducesTo_S128x200_S_d0_1 h_S_) main_v36 main_c_13
  let main_v38 : IVec S_ 1 := andi main_v33 main_v37
  let main_v39 : FVec F S128x200 .f32 := Host.absf main_arg9
  let main_cst_14 : FVec F S_ .f32 := constant S_ .f32 0x7F800000#32
  let main_v40 : FVec F S128x200 .f32 := broadcastInDim S128x200 ![] bcast_S_S128x200 main_cst_14
  let main_v41 : IVec S128x200 1 := cmpf .olt main_v39 main_v40
  let main_c_15 : IVec S_ 1 := constantI S_ 1 1#1
  let main_v42 : IVec S_ 1 := (fun x v => Host.reduce IntOp.andi x v reducesTo_S128x200_S_d0_1 h_S_) main_v41 main_c_15
  let main_v43 : IVec S_ 1 := andi main_v38 main_v42
  let main_v44 : FVec F S128x200 .f32 := Host.absf main_arg10
  let main_cst_16 : FVec F S_ .f32 := constant S_ .f32 0x7F800000#32
  let main_v45 : FVec F S128x200 .f32 := broadcastInDim S128x200 ![] bcast_S_S128x200 main_cst_16
  let main_v46 : IVec S128x200 1 := cmpf .olt main_v44 main_v45
  let main_c_17 : IVec S_ 1 := constantI S_ 1 1#1
  let main_v47 : IVec S_ 1 := (fun x v => Host.reduce IntOp.andi x v reducesTo_S128x200_S_d0_1 h_S_) main_v46 main_c_17
  let main_v48 : IVec S_ 1 := andi main_v43 main_v47
  let main_v49 : FVec F S200 .f32 := Host.absf main_arg11
  let main_cst_18 : FVec F S_ .f32 := constant S_ .f32 0x7F800000#32
  let main_v50 : FVec F S200 .f32 := broadcastInDim S200 ![] bcast_S_S200 main_cst_18
  fn_part3 (F := F) main_v48 main_v49 main_v50

def fn_part1 {F : FTy → Type} [FloatOps F] (main_arg5 : FVec F S128x200 .f32) (main_arg6 : FVec F S128x200 .f32) (main_arg7 : FVec F S200 .f32) (main_arg8 : FVec F S128x200 .f32) (main_arg9 : FVec F S128x200 .f32) (main_arg10 : FVec F S128x200 .f32) (main_arg11 : FVec F S200 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S128x200 .f32 := Host.absf main_arg5
  let main_cst_6 : FVec F S_ .f32 := constant S_ .f32 0x7F800000#32
  let main_v20 : FVec F S128x200 .f32 := broadcastInDim S128x200 ![] bcast_S_S128x200 main_cst_6
  let main_v21 : IVec S128x200 1 := cmpf .olt main_v19 main_v20
  let main_c_7 : IVec S_ 1 := constantI S_ 1 1#1
  let main_v22 : IVec S_ 1 := (fun x v => Host.reduce IntOp.andi x v reducesTo_S128x200_S_d0_1 h_S_) main_v21 main_c_7
  let main_v23 : IVec S_ 1 := andi main_v18 main_v22
  let main_v24 : FVec F S128x200 .f32 := Host.absf main_arg6
  let main_cst_8 : FVec F S_ .f32 := constant S_ .f32 0x7F800000#32
  let main_v25 : FVec F S128x200 .f32 := broadcastInDim S128x200 ![] bcast_S_S128x200 main_cst_8
  let main_v26 : IVec S128x200 1 := cmpf .olt main_v24 main_v25
  let main_c_9 : IVec S_ 1 := constantI S_ 1 1#1
  let main_v27 : IVec S_ 1 := (fun x v => Host.reduce IntOp.andi x v reducesTo_S128x200_S_d0_1 h_S_) main_v26 main_c_9
  let main_v28 : IVec S_ 1 := andi main_v23 main_v27
  let main_v29 : FVec F S200 .f32 := Host.absf main_arg7
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000 .f32) (main_arg3 : FVec F S128x200 .f32) (main_arg4 : FVec F S200 .f32) (main_arg5 : FVec F S128x200 .f32) (main_arg6 : FVec F S128x200 .f32) (main_arg7 : FVec F S200 .f32) (main_arg8 : FVec F S128x200 .f32) (main_arg9 : FVec F S128x200 .f32) (main_arg10 : FVec F S128x200 .f32) (main_arg11 : FVec F S200 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x200 .f32 := Host.absf main_arg3
  let main_cst_2 : FVec F S_ .f32 := constant S_ .f32 0x7F800000#32
  let main_v10 : FVec F S128x200 .f32 := broadcastInDim S128x200 ![] bcast_S_S128x200 main_cst_2
  let main_v11 : IVec S128x200 1 := cmpf .olt main_v9 main_v10
  let main_c_3 : IVec S_ 1 := constantI S_ 1 1#1
  let main_v12 : IVec S_ 1 := (fun x v => Host.reduce IntOp.andi x v reducesTo_S128x200_S_d0_1 h_S_) main_v11 main_c_3
  let main_v13 : IVec S_ 1 := andi main_v8 main_v12
  let main_v14 : FVec F S200 .f32 := Host.absf main_arg4
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x200 : Shape := ⟨2, ![128, 200]⟩
abbrev S200 : Shape := ⟨1, ![200]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x200 : Shape := ⟨2, ![1, 200]⟩
abbrev S50000x200 : Shape := ⟨2, ![50000, 200]⟩
abbrev S2000x128 : Shape := ⟨2, ![2000, 128]⟩
abbrev S2000x200 : Shape := ⟨2, ![2000, 200]⟩

abbrev nBuf : Space → Nat
  | .hbm => 95
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x200, .f32⟩
  | .hbm, ⟨4, _⟩ => ⟨S200, .f32⟩
  | .hbm, ⟨5, _⟩ => ⟨S128x200, .f32⟩
  | .hbm, ⟨6, _⟩ => ⟨S128x200, .f32⟩
  | .hbm, ⟨7, _⟩ => ⟨S200, .f32⟩
  | .hbm, ⟨8, _⟩ => ⟨S128x200, .f32⟩
  | .hbm, ⟨9, _⟩ => ⟨S128x200, .f32⟩
  | .hbm, ⟨10, _⟩ => ⟨S128x200, .f32⟩
  | .hbm, ⟨11, _⟩ => ⟨S200, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000, .f32⟩
  | .hbm, ⟨52, _⟩ => ⟨S800000, .f32⟩
  | .hbm, ⟨53, _⟩ => ⟨S800000x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S800000x1, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x200, .f32⟩
  | .hbm, ⟨90, _⟩ => ⟨S1x200, .f32⟩
  | .hbm, ⟨91, _⟩ => ⟨S1x200, .f32⟩
  | .hbm, ⟨92, _⟩ => ⟨S50000x200, .f32⟩
  | .hbm, ⟨93, _⟩ => ⟨S50000x200, .f32⟩
  | .hbm, ⟨94, _⟩ => ⟨S50000x200, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x200, .f32⟩
  | .local _ .vmem, ⟨7, _⟩ => ⟨S128x200, .f32⟩
  | .local _ .vmem, ⟨8, _⟩ => ⟨S128x200, .f32⟩
  | .local _ .vmem, ⟨9, _⟩ => ⟨S128x200, .f32⟩
  | .local _ .vmem, ⟨10, _⟩ => ⟨S128x200, .f32⟩
  | .local _ .vmem, ⟨11, _⟩ => ⟨S128x200, .f32⟩
  | .local _ .vmem, ⟨12, _⟩ => ⟨S1x200, .f32⟩
  | .local _ .vmem, ⟨13, _⟩ => ⟨S1x200, .f32⟩
  | .local _ .vmem, ⟨14, _⟩ => ⟨S1x200, .f32⟩
  | .local _ .vmem, ⟨15, _⟩ => ⟨S2000x200, .f32⟩
  | .local _ .vmem, ⟨16, _⟩ => ⟨S2000x200, .f32⟩
  | .local _ .vmem, ⟨17, _⟩ => ⟨S2000x200, .f32⟩
  | .local _ .vmem, ⟨18, _⟩ => ⟨S2000x200, .f32⟩
  | .local _ .vmem, ⟨19, _⟩ => ⟨S2000x200, .f32⟩
  | .local _ .vmem, ⟨20, _⟩ => ⟨S2000x200, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64_0 : Ref sig .tc := ⟨.hbm, 92, rfl⟩
abbrev main_v64_1 : Ref sig .tc := ⟨.hbm, 93, rfl⟩
abbrev main_v64_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x200 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x200 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S200_S1x200 : S200.ShapeCasts S1x200
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x200_S128x200_0_0 : ∀ a, (![0, 0] : Fin 2 → Nat) a + S128x200.size a ≤ S128x200.size a
  h_S128x200 : 0 < S128x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  inb_S2000x200_S2000x200_0_0 : ∀ a, (![0, 0] : Fin 2 → Nat) a + S2000x200.size a ≤ S2000x200.size a
  h_S2000x200 : 0 < S2000x200.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x200_S2000x200_1_0_0_1_n_n_wf : DotDims.WF S2000x128 S128x200 S2000x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x200.size a ≤ S128x200.size a
  hwx0_3 : ∀ i : grid0.Coords, EltTy.bits .f32 = 32 ∨ (Rect.block (s := S128x200) S128x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x200.size a ≤ S128x200.size a
  hwx0_4 : ∀ i : grid0.Coords, EltTy.bits .f32 = 32 ∨ (Rect.block (s := S128x200) S128x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x200.size a ≤ S128x200.size a
  hwx0_5 : ∀ i : grid0.Coords, EltTy.bits .f32 = 32 ∨ (Rect.block (s := S128x200) S128x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x200.size a ≤ S128x200.size a
  hwx0_6 : ∀ i : grid0.Coords, EltTy.bits .f32 = 32 ∨ (Rect.block (s := S128x200) S128x200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x200.size a ≤ S128x200.size a
  hwx0_7 : ∀ i : grid0.Coords, EltTy.bits .f32 = 32 ∨ (Rect.block (s := S128x200) S128x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x200.size a ≤ S128x200.size a
  hwx0_8 : ∀ i : grid0.Coords, EltTy.bits .f32 = 32 ∨ (Rect.block (s := S128x200) S128x200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .f32 = 32 ∨ (Rect.block (s := S1x200) S1x200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x200.size a ≤ S1x200.size a
  hwx0_10 : ∀ i : grid0.Coords, EltTy.bits .f32 = 32 ∨ (Rect.block (s := S1x200) S1x200.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x200.size a ≤ S1x200.size a
  hwx0_11 : ∀ i : grid0.Coords, EltTy.bits .f32 = 32 ∨ (Rect.block (s := S1x200) S1x200.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x200.size a ≤ S50000x200.size a
  hwx0_12 : ∀ i : grid0.Coords, EltTy.bits .f32 = 32 ∨ (Rect.block (s := S50000x200) S2000x200.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x200.size a ≤ S50000x200.size a
  hwx0_13 : ∀ i : grid0.Coords, EltTy.bits .f32 = 32 ∨ (Rect.block (s := S50000x200) S2000x200.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x200.size a ≤ S50000x200.size a
  hwx0_14 : ∀ i : grid0.Coords, EltTy.bits .f32 = 32 ∨ (Rect.block (s := S50000x200) S2000x200.size (cc0_transform_14 i) (hinb0_14 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x200_S2000x200_1_0_0_1_n_n : DotDims S2000x128 S128x200 S2000x200 where
  lhsContracting := [1]
  rhsContracting := [0]
  lhsNonContracting := [0]
  rhsNonContracting := [1]
  lhsBatch := []
  rhsBatch := []
  wf := dot_S2000x128_S128x200_S2000x200_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v61) S1x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v62) S1x200.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v63) S1x200.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v64_0) S2000x200.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v64_1) S2000x200.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v64_2) S2000x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x200 : Shape := ⟨2, ![128, 200]⟩
abbrev S200 : Shape := ⟨1, ![200]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x200 : Shape := ⟨2, ![50000, 200]⟩
abbrev S1x200 : Shape := ⟨2, ![1, 200]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x200, .f32⟩
  | .hbm, ⟨4, _⟩ => ⟨S200, .f32⟩
  | .hbm, ⟨5, _⟩ => ⟨S128x200, .f32⟩
  | .hbm, ⟨6, _⟩ => ⟨S128x200, .f32⟩
  | .hbm, ⟨7, _⟩ => ⟨S200, .f32⟩
  | .hbm, ⟨8, _⟩ => ⟨S128x200, .f32⟩
  | .hbm, ⟨9, _⟩ => ⟨S128x200, .f32⟩
  | .hbm, ⟨10, _⟩ => ⟨S128x200, .f32⟩
  | .hbm, ⟨11, _⟩ => ⟨S200, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000, .f32⟩
  | .hbm, ⟨52, _⟩ => ⟨S800000, .f32⟩
  | .hbm, ⟨53, _⟩ => ⟨S800000x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S800000x1, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x200, .f32⟩
  | .hbm, ⟨90, _⟩ => ⟨S1x200, .f32⟩
  | .hbm, ⟨91, _⟩ => ⟨S50000x200, .f32⟩
  | .hbm, ⟨92, _⟩ => ⟨S50000x200, .f32⟩
  | .hbm, ⟨93, _⟩ => ⟨S50000x200, .f32⟩
  | .hbm, ⟨94, _⟩ => ⟨S50000x200, .f32⟩
  | .hbm, ⟨95, _⟩ => ⟨S50000x200, .f32⟩
  | .hbm, ⟨96, _⟩ => ⟨S1x200, .f32⟩
  | .hbm, ⟨97, _⟩ => ⟨S50000x200, .f32⟩
  | .hbm, ⟨98, _⟩ => ⟨S50000x200, .f32⟩
  | .hbm, ⟨99, _⟩ => ⟨S50000x200, .f32⟩
  | .hbm, ⟨100, _⟩ => ⟨S50000x200, .f32⟩
  | .hbm, ⟨101, _⟩ => ⟨S50000x200, .f32⟩
  | .hbm, ⟨102, _⟩ => ⟨S50000x200, .f32⟩
  | .hbm, ⟨103, _⟩ => ⟨S50000x200, .f32⟩
  | .hbm, ⟨104, _⟩ => ⟨S1x200, .f32⟩
  | .hbm, ⟨105, _⟩ => ⟨S50000x200, .f32⟩
  | .hbm, ⟨106, _⟩ => ⟨S50000x200, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x200_S50000x200_1_0_0_1_n_n_wf : DotDims.WF S50000x128 S128x200 S50000x200 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x200_S50000x200_1_0_0_1_n_n : DotDims S50000x128 S128x200 S50000x200 where
  lhsContracting := [1]
  rhsContracting := [0]
  lhsNonContracting := [0]
  rhsNonContracting := [1]
  lhsBatch := []
  rhsBatch := []
  wf := dot_S50000x128_S128x200_S50000x200_1_0_0_1_n_n_wf

class Facts : Prop extends Facts₀ where

variable [Facts]
-- ==== Proof.KernelBlock.lean ====
/-
  What one grid point's body computes, entry by entry.

  At a grid point the body sees a block of 2000 node rows of each of `x`, `t1`, `t2` ([2000, 128]), the six whole
  weight matrices ([128, 200]) and the three biases as rows ([1, 200]). Each `tpu.matmul` starts from a zero
  accumulator, so at the ideal values entry `(p, q)` of a product is the plain sum over the 128 channels
  `∑ k, a (p, k) * w (k, q)`; the casts to bf16 before the products are the identity on the extended reals; a bias row
  broadcast over the 2000 rows reads `b (0, q)` at `(p, q)`. So the three stored payloads are, at `(p, q)`,

      a·w + b,   (a·w₀ + a₁·w₁) + b,   ((a·w₀ + a₁·w₁) + a₂·w₂) + b

  in exactly this grouping.
-/
import proofs.«131286_j26645977104435_1_alg».proof.Proof.Gen.KernelIdeal.Frame
import Idealize.ShloMosaic.Lib.ValueIdx
import Idealize.ShloMosaic.Lib.Pipeline.Value
import Idealize.ShloMosaic.PureOps.Ideal.Laws

noncomputable section

namespace Cert.ChebHeads.Block

open Cert.KernelIdeal Cert.KernelIdeal.Gen Idealize.ShloMosaic Idealize.ShloMosaic.TcCoe Idealize.ShloMosaic.ValueIdx
open scoped BigOperators

/-! ## One block product at an entry -/

/-- The left operand's row coordinate is the output's row. -/
theorem lhs_tile_0 (i : S2000x200.Idx) (q : dot_S2000x128_S128x200_S2000x200_1_0_0_1_n_n.contr.Idx) :
    (dot_S2000x128_S128x200_S2000x200_1_0_0_1_n_n.lhsIdx i q 0).val = (i 0).val := by
  unfold DotDims.lhsIdx
  rw [dif_neg (show ¬(0 : Fin S2000x128.rank) ∈ dot_S2000x128_S128x200_S2000x200_1_0_0_1_n_n.lhsBatch by decide), dif_pos (show (0 : Fin S2000x128.rank) ∈ dot_S2000x128_S128x200_S2000x200_1_0_0_1_n_n.lhsNonContracting by decide)]
  rfl
/-- The left operand's channel coordinate is the contraction index. -/
theorem lhs_tile_1 (i : S2000x200.Idx) (q : dot_S2000x128_S128x200_S2000x200_1_0_0_1_n_n.contr.Idx) :
    (dot_S2000x128_S128x200_S2000x200_1_0_0_1_n_n.lhsIdx i q 1).val = (q ⟨0, by decide⟩).val :=
  dot_S2000x128_S128x200_S2000x200_1_0_0_1_n_n.lhsIdx_val_of_single rfl i q
/-- The right operand's channel coordinate is the contraction index. -/
theorem rhs_tile_0 (i : S2000x200.Idx) (q : dot_S2000x128_S128x200_S2000x200_1_0_0_1_n_n.contr.Idx) :
    (dot_S2000x128_S128x200_S2000x200_1_0_0_1_n_n.rhsIdx i q 0).val = (q ⟨0, by decide⟩).val :=
  dot_S2000x128_S128x200_S2000x200_1_0_0_1_n_n.rhsIdx_val_of_single rfl i q
/-- The right operand's column coordinate is the output's column. -/
theorem rhs_tile_1 (i : S2000x200.Idx) (q : dot_S2000x128_S128x200_S2000x200_1_0_0_1_n_n.contr.Idx) :
    (dot_S2000x128_S128x200_S2000x200_1_0_0_1_n_n.rhsIdx i q 1).val = (i 1).val := by
  unfold DotDims.rhsIdx
  rw [dif_neg (show ¬(1 : Fin S128x200.rank) ∈ dot_S2000x128_S128x200_S2000x200_1_0_0_1_n_n.rhsBatch by decide), dif_pos (show (1 : Fin S128x200.rank) ∈ dot_S2000x128_S128x200_S2000x200_1_0_0_1_n_n.rhsNonContracting by decide)]
  rfl

/-- A block product from a zero accumulator, read at `(p, q)`: the sum over the channels. -/
theorem tileDot_apply (a : FVec Ideal S2000x128 .bf16) (w : FVec Ideal S128x200 .bf16) (p : Fin 2000) (q : Fin 200) :
    matmul dot_S2000x128_S128x200_S2000x200_1_0_0_1_n_n none a w (constant S2000x200 .f32 0x00000000#32) (ix2 p q)
      = ∑ k : Fin 128, a (ix2 p k) * w (ix2 k q) := by
  simp only [matmul]
  rw [Ideal.matmul_constant_zero_apply, ← Equiv.sum_comp (contrEquiv1 dot_S2000x128_S128x200_S2000x200_1_0_0_1_n_n 128 rfl rfl).symm]
  refine Finset.sum_congr rfl fun k _ => ?_
  have hk := contrEquiv1_symm_val dot_S2000x128_S128x200_S2000x200_1_0_0_1_n_n 128 rfl rfl k
  have el : dot_S2000x128_S128x200_S2000x200_1_0_0_1_n_n.lhsIdx (ix2 p q) ((contrEquiv1 dot_S2000x128_S128x200_S2000x200_1_0_0_1_n_n 128 rfl rfl).symm k) = ix2 p k := funext fun d => Fin.ext (by
    match d with
    | ⟨0, _⟩ => exact lhs_tile_0 _ _
    | ⟨1, _⟩ => exact (lhs_tile_1 _ _).trans hk)
  have er : dot_S2000x128_S128x200_S2000x200_1_0_0_1_n_n.rhsIdx (ix2 p q) ((contrEquiv1 dot_S2000x128_S128x200_S2000x200_1_0_0_1_n_n 128 rfl rfl).symm k) = ix2 k q := funext fun d => Fin.ext (by
    match d with
    | ⟨0, _⟩ => exact (rhs_tile_0 _ _).trans hk
    | ⟨1, _⟩ => exact rhs_tile_1 _ _)
  rw [el, er]

/-! ## A bias row over the block's rows -/

/-- The bias row, cast to its own shape twice and broadcast over the 2000 rows, reads `b (0, q)` at `(p, q)`. -/
theorem biasRows_apply (b : FVec Ideal S1x200 .f32) (p : Fin 2000) (q : Fin 200) :
    broadcastTo S2000x200 (shapeCast S1x200 (shapeCast S1x200 b shapeCasts_S1x200_S1x200) shapeCasts_S1x200_S1x200) broadcasts_S1x200_S2000x200 (ix2 p q)
      = b (ix2 (0 : Fin 1) q) := by
  rw [shapeCast_self, shapeCast_self]
  exact broadcastTo_apply b broadcasts_S1x200_S2000x200 (ix2 p q) (ix2 (0 : Fin 1) q) (fun d => match d with
    | ⟨0, _⟩ => by show 0 = if (1 : Nat) = 1 then 0 else _; rw [if_pos rfl]
    | ⟨1, _⟩ => by show q.val = if (200 : Nat) = 1 then 0 else _; rw [if_neg (by decide)]; rfl)

/-! ## The three stored payloads at an entry -/

/-- Head one's block: `a·w + b`. -/
theorem pay_head1 (a : Vec Ideal S2000x128 .f32) (w : Vec Ideal S128x200 .f32) (b : Vec Ideal S1x200 .f32) (p : Fin 2000) (q : Fin 200) :
    k0_pay13 (F := Ideal) a w b (ix2 p q) = (∑ k : Fin 128, a (ix2 p k) * w (ix2 k q)) + b (ix2 (0 : Fin 1) q) := by
  unfold k0_pay13 k0_pay3
  refine (addf_apply _ _ _).trans ?_
  refine congrArg₂ (· + ·) ?_ ?_
  · exact tileDot_apply _ _ p q
  · exact biasRows_apply b p q

/-- Head two's block: `(a·w₀ + a₁·w₁) + b`. -/
theorem pay_head2 (a a1 : Vec Ideal S2000x128 .f32) (w0 w1 : Vec Ideal S128x200 .f32) (b : Vec Ideal S1x200 .f32) (p : Fin 2000) (q : Fin 200) :
    k0_pay1 (F := Ideal) (k0_pay3 a) (k0_pay4 a1) (k0_pay6 w0) (k0_pay7 w1) (k0_pay11 b) (ix2 p q)
      = (∑ k : Fin 128, a (ix2 p k) * w0 (ix2 k q)) + (∑ k : Fin 128, a1 (ix2 p k) * w1 (ix2 k q)) + b (ix2 (0 : Fin 1) q) := by
  unfold k0_pay1 k0_pay3 k0_pay4 k0_pay6 k0_pay7 k0_pay11
  refine (addf_apply _ _ _).trans ?_
  refine congrArg₂ (· + ·) ((addf_apply _ _ _).trans (congrArg₂ (· + ·) ?_ ?_)) ?_
  · exact tileDot_apply _ _ p q
  · rw [shapeCast_self]; exact tileDot_apply _ _ p q
  · exact biasRows_apply b p q

/-- Head three's block: `((a·w₀ + a₁·w₁) + a₂·w₂) + b`. -/
theorem pay_head3 (a a1 a2 : Vec Ideal S2000x128 .f32) (w0 w1 w2 : Vec Ideal S128x200 .f32) (b : Vec Ideal S1x200 .f32) (p : Fin 2000) (q : Fin 200) :
    k0_pay2 (F := Ideal) (k0_pay3 a) (k0_pay4 a1) (k0_pay5 a2) (k0_pay8 w0) (k0_pay9 w1) (k0_pay10 w2) (k0_pay12 b) (ix2 p q)
      = (∑ k : Fin 128, a (ix2 p k) * w0 (ix2 k q)) + (∑ k : Fin 128, a1 (ix2 p k) * w1 (ix2 k q))
          + (∑ k : Fin 128, a2 (ix2 p k) * w2 (ix2 k q)) + b (ix2 (0 : Fin 1) q) := by
  unfold k0_pay2 k0_pay3 k0_pay4 k0_pay5 k0_pay8 k0_pay9 k0_pay10 k0_pay12
  refine (addf_apply _ _ _).trans ?_
  refine congrArg₂ (· + ·) ((addf_apply _ _ _).trans (congrArg₂ (· + ·) ((addf_apply _ _ _).trans (congrArg₂ (· + ·) ?_ ?_)) ?_)) ?_
  · exact tileDot_apply _ _ p q
  · rw [shapeCast_self]; exact tileDot_apply _ _ p q
  · rw [shapeCast_self]; exact tileDot_apply _ _ p q
  · exact biasRows_apply b p q

end Cert.ChebHeads.Block

end
-- ==== Proof.ChebSpec.lean ====
/-
  The three dense heads as one function each of the arrays they read, entry by entry.

  With `x` the node features ([50000, 128]) and `t1`, `t2` the first and second Chebyshev propagations of `x`
  (arrays of the same shape; here they are only named, nothing of how they are made is used), head `K` is

      s1 = x·W₁₀ + b₁,   s2 = (x·W₂₀ + t1·W₂₁) + b₂,   s3 = ((x·W₃₀ + t1·W₃₁) + t2·W₃₂) + b₃,

  each product a [50000,128]×[128,200] matrix product, each bias a row of 200 entries added to every node's row.
  Entry (r, c) of a product is the sum over the 128 input channels `k` of `a (r, k) * w (k, c)`, on the extended
  reals; the sums are left in the grouping written above, which is the one both programs compute.
-/
import Idealize.ShloMosaic.PureOps.Ideal
import Idealize.ShloMosaic.Lib.ValueIdx

noncomputable section

namespace Cert.ChebHeads

open Idealize.ShloMosaic Idealize.ShloMosaic.ValueIdx
open scoped BigOperators

/-- Node features and their propagations: 50000 nodes, 128 channels. -/
abbrev NodeArr : Type := (⟨2, ![50000, 128]⟩ : Shape).Idx → EReal
/-- One weight matrix: 128 input channels, 200 output channels. -/
abbrev WeightArr : Type := (⟨2, ![128, 200]⟩ : Shape).Idx → EReal
/-- One bias: 200 output channels. -/
abbrev BiasArr : Type := (⟨1, ![200]⟩ : Shape).Idx → EReal
/-- One head's result: 50000 nodes, 200 output channels. -/
abbrev HeadArr : Type := (⟨2, ![50000, 200]⟩ : Shape).Idx → EReal

/-- Entry `(r, c)` of the matrix product `a · w`: node `r`'s row against output channel `c`'s column. -/
def nodeDot (a : NodeArr) (w : WeightArr) (r : Fin 50000) (c : Fin 200) : EReal :=
  ∑ k : Fin 128, a (ix2 r k) * w (ix2 k c)

/-- The head of order one: `x·W + b`. -/
def head1 (x : NodeArr) (w : WeightArr) (b : BiasArr) : HeadArr :=
  fun j => nodeDot x w (j 0) (j 1) + b (ix1 (j 1))

/-- The head of order two: `(x·W₀ + t1·W₁) + b`. -/
def head2 (x t1 : NodeArr) (w0 w1 : WeightArr) (b : BiasArr) : HeadArr :=
  fun j => nodeDot x w0 (j 0) (j 1) + nodeDot t1 w1 (j 0) (j 1) + b (ix1 (j 1))

/-- The head of order three: `((x·W₀ + t1·W₁) + t2·W₂) + b`. -/
def head3 (x t1 t2 : NodeArr) (w0 w1 w2 : WeightArr) (b : BiasArr) : HeadArr :=
  fun j => nodeDot x w0 (j 0) (j 1) + nodeDot t1 w1 (j 0) (j 1) + nodeDot t2 w2 (j 0) (j 1) + b (ix1 (j 1))

end Cert.ChebHeads

end
-- ==== Proof.BlockOfArrays.lean ====
/-
  A grid point's block against the whole arrays.

  Grid point `n` sees rows `2000·n … 2000·n + 1999` of each node array and all of each weight and bias row. If a
  block `a` holds those rows of an array `A` — `a (p, k) = A (2000·n + p, k)` — and the weight and bias blocks are
  the whole arrays, then what the body stores at `(p, q)` is the head's entry at `(2000·n + p, q)`: the sums over the
  channels agree term by term.
-/
import proofs.«131286_j26645977104435_1_alg».proof.Proof.KernelBlock
import proofs.«131286_j26645977104435_1_alg».proof.Proof.ChebSpec

noncomputable section

namespace Cert.ChebHeads.Block

open Cert.KernelIdeal Cert.KernelIdeal.Gen Idealize.ShloMosaic Idealize.ShloMosaic.TcCoe Idealize.ShloMosaic.ValueIdx
open scoped BigOperators

/-- "Block `a` is rows `2000·n …` of `A`": every block entry is the array entry in the same column, `2000·n`
    rows further down. -/
def RowsOf (n : Nat) (a : Vec Ideal S2000x128 .f32) (A : NodeArr) : Prop :=
  ∀ (y : S2000x128.Idx) (z : (⟨2, ![50000, 128]⟩ : Shape).Idx), (z 0).val = n * 2000 + (y 0).val → (z 1).val = (y 1).val → a y = A z

/-- One product: the block's channel sum at `(p, q)` is the array's at `(r, q)`, `r = 2000·n + p`. -/
theorem blockDot_eq {n : Nat} {a : Vec Ideal S2000x128 .f32} {A : NodeArr} (ha : RowsOf n a A)
    (w : Vec Ideal S128x200 .f32) (p : Fin 2000) (q : Fin 200) (r : Fin 50000) (hr : r.val = n * 2000 + p.val) :
    (∑ k : Fin 128, a (ix2 p k) * w (ix2 k q)) = nodeDot A w r q := by
  unfold nodeDot
  exact Finset.sum_congr rfl fun k _ => by rw [ha (ix2 p k) (ix2 r k) hr rfl]

/-- Head one's stored block is head one of the arrays, row by row. -/
theorem head1_block {n : Nat} {a : Vec Ideal S2000x128 .f32} {A : NodeArr} (ha : RowsOf n a A)
    (w : Vec Ideal S128x200 .f32) (b : Vec Ideal S1x200 .f32)
    (j : S2000x200.Idx) (i : S50000x200.Idx) (h0 : (i 0).val = n * 2000 + (j 0).val) (h1 : (i 1).val = (j 1).val) :
    k0_pay13 (F := Ideal) a w b j = head1 A w (fun d => b (ix2 (0 : Fin 1) (d 0))) i := by
  obtain ⟨p, q, rfl⟩ : ∃ (p : Fin 2000) (q : Fin 200), j = ix2 p q := ⟨j 0, j 1, eq_ix2 j⟩
  obtain ⟨r, s, rfl⟩ : ∃ (r : Fin 50000) (s : Fin 200), i = ix2 r s := ⟨i 0, i 1, eq_ix2 i⟩
  obtain rfl : s = q := Fin.ext h1
  rw [pay_head1, blockDot_eq ha w p s r h0]
  rfl

/-- Head two's stored block is head two of the arrays, row by row. -/
theorem head2_block {n : Nat} {a a1 : Vec Ideal S2000x128 .f32} {A A1 : NodeArr} (ha : RowsOf n a A) (ha1 : RowsOf n a1 A1)
    (w0 w1 : Vec Ideal S128x200 .f32) (b : Vec Ideal S1x200 .f32)
    (j : S2000x200.Idx) (i : S50000x200.Idx) (h0 : (i 0).val = n * 2000 + (j 0).val) (h1 : (i 1).val = (j 1).val) :
    k0_pay1 (F := Ideal) (k0_pay3 a) (k0_pay4 a1) (k0_pay6 w0) (k0_pay7 w1) (k0_pay11 b) j
      = head2 A A1 w0 w1 (fun d => b (ix2 (0 : Fin 1) (d 0))) i := by
  obtain ⟨p, q, rfl⟩ : ∃ (p : Fin 2000) (q : Fin 200), j = ix2 p q := ⟨j 0, j 1, eq_ix2 j⟩
  obtain ⟨r, s, rfl⟩ : ∃ (r : Fin 50000) (s : Fin 200), i = ix2 r s := ⟨i 0, i 1, eq_ix2 i⟩
  obtain rfl : s = q := Fin.ext h1
  rw [pay_head2, blockDot_eq ha w0 p s r h0, blockDot_eq ha1 w1 p s r h0]
  rfl

/-- Head three's stored block is head three of the arrays, row by row. -/
theorem head3_block {n : Nat} {a a1 a2 : Vec Ideal S2000x128 .f32} {A A1 A2 : NodeArr}
    (ha : RowsOf n a A) (ha1 : RowsOf n a1 A1) (ha2 : RowsOf n a2 A2)
    (w0 w1 w2 : Vec Ideal S128x200 .f32) (b : Vec Ideal S1x200 .f32)
    (j : S2000x200.Idx) (i : S50000x200.Idx) (h0 : (i 0).val = n * 2000 + (j 0).val) (h1 : (i 1).val = (j 1).val) :
    k0_pay2 (F := Ideal) (k0_pay3 a) (k0_pay4 a1) (k0_pay5 a2) (k0_pay8 w0) (k0_pay9 w1) (k0_pay10 w2) (k0_pay12 b) j
      = head3 A A1 A2 w0 w1 w2 (fun d => b (ix2 (0 : Fin 1) (d 0))) i := by
  obtain ⟨p, q, rfl⟩ : ∃ (p : Fin 2000) (q : Fin 200), j = ix2 p q := ⟨j 0, j 1, eq_ix2 j⟩
  obtain ⟨r, s, rfl⟩ : ∃ (r : Fin 50000) (s : Fin 200), i = ix2 r s := ⟨i 0, i 1, eq_ix2 i⟩
  obtain rfl : s = q := Fin.ext h1
  rw [pay_head3, blockDot_eq ha w0 p s r h0, blockDot_eq ha1 w1 p s r h0, blockDot_eq ha2 w2 p s r h0]
  rfl

end Cert.ChebHeads.Block

end
-- ==== Proof.GridBlocks.lean ====
/-
  The grid's blocks against the whole arrays.

  The grid has 25 points; point `t` reads rows `2000·t … 2000·t + 1999` of `x`, `t1`, `t2` (block index `(t, 0)`), the
  whole of every weight matrix and bias row (block index `(0, 0)` at every point), and writes rows `2000·t …` of each
  of the three results. These relations between the printed index maps are decided once over the 25 points; from
  them: each node window's block of an array is rows `2000·t …` of it; each weight or bias window's block of an array
  is the whole array; what a point stores is block `t` of the head; and the 25 result blocks cover all 50000 rows
  (row `r` lies in block `r / 2000`).
-/
import proofs.«131286_j26645977104435_1_alg».proof.Proof.Gen.KernelIdeal.Value
import proofs.«131286_j26645977104435_1_alg».proof.Proof.BlockOfArrays

set_option maxRecDepth 16384

noncomputable section

namespace Cert.ChebHeads.Grid

open Cert.KernelIdeal Cert.KernelIdeal.Gen Idealize.ShloMosaic Idealize.ShloMosaic.TcCoe Idealize.SL.Sem Idealize.ShloMosaic.ValueIdx
open Idealize.ShloMosaic.Pipeline (Dat)
open Cert.ChebHeads.Block

variable (m : (ℓ : Loc nD τ sig) → Buf (Elt Ideal) ℓ)

theorem origin2 : (![0, 0] : Fin 2 → Nat) = fun _ => 0 := funext fun a => by fin_cases a <;> rfl

/-! ## The index maps over the grid -/

/-- The three node windows and the three result windows move down one block of rows per point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The weight and bias windows stay at block `(0, 0)`. -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## Each input window's block of any array -/

/-- Node window 0's block at point `t` of any array is rows `2000·t …` of that array. -/
theorem rows0_of (t : Fin cfg0.N) (G : NodeArr) : RowsOf t.val (((cfg0.win 0).blk t).view.read (Elt Ideal) G) G := by
  intro y z hz0 hz1
  obtain ⟨e0, e1, -⟩ := idx_rows t
  have he : ((cfg0.win 0).blk t).view.emb y = z := by
    funext a; apply Fin.ext
    match a with
    | ⟨0, _⟩ => show win0_0.index t (0 : Fin 2) * 2000 + 1 * (y 0).val = (z 0).val; omega
    | ⟨1, _⟩ => show win0_0.index t (1 : Fin 2) * 128 + 1 * (y 1).val = (z 1).val; omega
  show G (((cfg0.win 0).blk t).view.emb y) = G z
  rw [he]

/-- Node window 1's block at point `t` of any array is rows `2000·t …` of that array. -/
theorem rows1_of (t : Fin cfg0.N) (G : NodeArr) : RowsOf t.val (((cfg0.win 1).blk t).view.read (Elt Ideal) G) G := by
  intro y z hz0 hz1
  obtain ⟨-, -, e0, e1, -⟩ := idx_rows t
  have he : ((cfg0.win 1).blk t).view.emb y = z := by
    funext a; apply Fin.ext
    match a with
    | ⟨0, _⟩ => show win0_1.index t (0 : Fin 2) * 2000 + 1 * (y 0).val = (z 0).val; omega
    | ⟨1, _⟩ => show win0_1.index t (1 : Fin 2) * 128 + 1 * (y 1).val = (z 1).val; omega
  show G (((cfg0.win 1).blk t).view.emb y) = G z
  rw [he]

/-- Node window 2's block at point `t` of any array is rows `2000·t …` of that array. -/
theorem rows2_of (t : Fin cfg0.N) (G : NodeArr) : RowsOf t.val (((cfg0.win 2).blk t).view.read (Elt Ideal) G) G := by
  intro y z hz0 hz1
  obtain ⟨-, -, -, -, e0, e1, -⟩ := idx_rows t
  have he : ((cfg0.win 2).blk t).view.emb y = z := by
    funext a; apply Fin.ext
    match a with
    | ⟨0, _⟩ => show win0_2.index t (0 : Fin 2) * 2000 + 1 * (y 0).val = (z 0).val; omega
    | ⟨1, _⟩ => show win0_2.index t (1 : Fin 2) * 128 + 1 * (y 1).val = (z 1).val; omega
  show G (((cfg0.win 2).blk t).view.emb y) = G z
  rw [he]

/-- Window 3's block at every point of any array is the whole array. -/
theorem whole3_of (t : Fin cfg0.N) (G : Vec Ideal S128x200 .f32) : ((cfg0.win 3).blk t).view.read (Elt Ideal) G = G := by
  obtain ⟨f0, f1, -⟩ := idx_fixed t
  funext y
  have he : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 200 + 1 * (y 1).val = (y 1).val; omega
  show G (((cfg0.win 3).blk t).view.emb y) = G y
  rw [he]

/-- Window 4's block at every point of any array is the whole array. -/
theorem whole4_of (t : Fin cfg0.N) (G : Vec Ideal S128x200 .f32) : ((cfg0.win 4).blk t).view.read (Elt Ideal) G = G := by
  obtain ⟨-, -, f0, f1, -⟩ := idx_fixed t
  funext y
  have he : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 200 + 1 * (y 1).val = (y 1).val; omega
  show G (((cfg0.win 4).blk t).view.emb y) = G y
  rw [he]

/-- Window 5's block at every point of any array is the whole array. -/
theorem whole5_of (t : Fin cfg0.N) (G : Vec Ideal S128x200 .f32) : ((cfg0.win 5).blk t).view.read (Elt Ideal) G = G := by
  obtain ⟨-, -, -, -, f0, f1, -⟩ := idx_fixed t
  funext y
  have he : ((cfg0.win 5).blk t).view.emb y = y := by
    funext a; apply Fin.ext
    match a with
    | ⟨0, _⟩ => show win0_5.index t (0 : Fin 2) * 128 + 1 * (y 0).val = (y 0).val; omega
    | ⟨1, _⟩ => show win0_5.index t (1 : Fin 2) * 200 + 1 * (y 1).val = (y 1).val; omega
  show G (((cfg0.win 5).blk t).view.emb y) = G y
  rw [he]

/-- Window 6's block at every point of any array is the whole array. -/
theorem whole6_of (t : Fin cfg0.N) (G : Vec Ideal S128x200 .f32) : ((cfg0.win 6).blk t).view.read (Elt Ideal) G = G := by
  obtain ⟨-, -, -, -, -, -, f0, f1, -⟩ := idx_fixed t
  funext y
  have he : ((cfg0.win 6).blk t).view.emb y = y := by
    funext a; apply Fin.ext
    match a with
    | ⟨0, _⟩ => show win0_6.index t (0 : Fin 2) * 128 + 1 * (y 0).val = (y 0).val; omega
    | ⟨1, _⟩ => show win0_6.index t (1 : Fin 2) * 200 + 1 * (y 1).val = (y 1).val; omega
  show G (((cfg0.win 6).blk t).view.emb y) = G y
  rw [he]

/-- Window 7's block at every point of any array is the whole array. -/
theorem whole7_of (t : Fin cfg0.N) (G : Vec Ideal S128x200 .f32) : ((cfg0.win 7).blk t).view.read (Elt Ideal) G = G := by
  obtain ⟨-, -, -, -, -, -, -, -, f0, f1, -⟩ := idx_fixed t
  funext y
  have he : ((cfg0.win 7).blk t).view.emb y = y := by
    funext a; apply Fin.ext
    match a with
    | ⟨0, _⟩ => show win0_7.index t (0 : Fin 2) * 128 + 1 * (y 0).val = (y 0).val; omega
    | ⟨1, _⟩ => show win0_7.index t (1 : Fin 2) * 200 + 1 * (y 1).val = (y 1).val; omega
  show G (((cfg0.win 7).blk t).view.emb y) = G y
  rw [he]

/-- Window 8's block at every point of any array is the whole array. -/
theorem whole8_of (t : Fin cfg0.N) (G : Vec Ideal S128x200 .f32) : ((cfg0.win 8).blk t).view.read (Elt Ideal) G = G := by
  obtain ⟨-, -, -, -, -, -, -, -, -, -, f0, f1, -⟩ := idx_fixed t
  funext y
  have he : ((cfg0.win 8).blk t).view.emb y = y := by
    funext a; apply Fin.ext
    match a with
    | ⟨0, _⟩ => show win0_8.index t (0 : Fin 2) * 128 + 1 * (y 0).val = (y 0).val; omega
    | ⟨1, _⟩ => show win0_8.index t (1 : Fin 2) * 200 + 1 * (y 1).val = (y 1).val; omega
  show G (((cfg0.win 8).blk t).view.emb y) = G y
  rw [he]

/-- Window 9's block at every point of any array is the whole array. -/
theorem whole9_of (t : Fin cfg0.N) (G : Vec Ideal S1x200 .f32) : ((cfg0.win 9).blk t).view.read (Elt Ideal) G = G := by
  obtain ⟨-, -, -, -, -, -, -, -, -, -, -, -, f0, f1, -⟩ := idx_fixed t
  funext y
  have he : ((cfg0.win 9).blk t).view.emb y = y := by
    funext a; apply Fin.ext
    match a with
    | ⟨0, _⟩ => show win0_9.index t (0 : Fin 2) * 1 + 1 * (y 0).val = (y 0).val; omega
    | ⟨1, _⟩ => show win0_9.index t (1 : Fin 2) * 200 + 1 * (y 1).val = (y 1).val; omega
  show G (((cfg0.win 9).blk t).view.emb y) = G y
  rw [he]

/-- Window 10's block at every point of any array is the whole array. -/
theorem whole10_of (t : Fin cfg0.N) (G : Vec Ideal S1x200 .f32) : ((cfg0.win 10).blk t).view.read (Elt Ideal) G = G := by
  obtain ⟨-, -, -, -, -, -, -, -, -, -, -, -, -, -, f0, f1, -⟩ := idx_fixed t
  funext y
  have he : ((cfg0.win 10).blk t).view.emb y = y := by
    funext a; apply Fin.ext
    match a with
    | ⟨0, _⟩ => show win0_10.index t (0 : Fin 2) * 1 + 1 * (y 0).val = (y 0).val; omega
    | ⟨1, _⟩ => show win0_10.index t (1 : Fin 2) * 200 + 1 * (y 1).val = (y 1).val; omega
  show G (((cfg0.win 10).blk t).view.emb y) = G y
  rw [he]

/-- Window 11's block at every point of any array is the whole array. -/
theorem whole11_of (t : Fin cfg0.N) (G : Vec Ideal S1x200 .f32) : ((cfg0.win 11).blk t).view.read (Elt Ideal) G = G := by
  obtain ⟨-, -, -, -, -, -, -, -, -, -, -, -, -, -, -, -, f0, f1⟩ := idx_fixed t
  funext y
  have he : ((cfg0.win 11).blk t).view.emb y = y := by
    funext a; apply Fin.ext
    match a with
    | ⟨0, _⟩ => show win0_11.index t (0 : Fin 2) * 1 + 1 * (y 0).val = (y 0).val; omega
    | ⟨1, _⟩ => show win0_11.index t (1 : Fin 2) * 200 + 1 * (y 1).val = (y 1).val; omega
  show G (((cfg0.win 11).blk t).view.emb y) = G y
  rw [he]

/-! ## A stored block is block `t` of the head -/

/-- A bias row as the bias it carries: entry `q` is row entry `(0, q)`. -/
abbrev rowBias (b : Vec Ideal S1x200 .f32) : BiasArr := fun d => b (ix2 (0 : Fin 1) (d 0))

/-- What a point stores for result 1, from blocks that are rows `2000·t …` of the node arrays, is block `t` of the
    head of those arrays. -/
theorem block12_eq (t : Fin cfg0.N) (A : NodeArr) (W : Vec Ideal S128x200 .f32) (B : Vec Ideal S1x200 .f32) (a : Vec Ideal S2000x128 .f32) (ha : RowsOf t.val a A) :
    (k0_pay13 (F := Ideal) a W B : S2000x200.Idx → EReal)
      = ((cfg0.win 12).blk t).view.read (Elt Ideal) (head1 A W (rowBias B)) := by
  obtain ⟨-, -, -, -, -, -, e0, e1, -⟩ := idx_rows t
  funext j
  show _ = head1 A W (rowBias B) (((cfg0.win 12).blk t).view.emb j)
  exact head1_block ha W B j (((cfg0.win 12).blk t).view.emb j)
    (by show win0_12.index t (0 : Fin 2) * 2000 + 1 * (j 0).val = t.val * 2000 + (j 0).val; omega)
    (by show win0_12.index t (1 : Fin 2) * 200 + 1 * (j 1).val = (j 1).val; omega)

/-- What a point stores for result 2, from blocks that are rows `2000·t …` of the node arrays, is block `t` of the
    head of those arrays. -/
theorem block13_eq (t : Fin cfg0.N) (A A1 : NodeArr) (W0 W1 : Vec Ideal S128x200 .f32) (B : Vec Ideal S1x200 .f32) (a a1 : Vec Ideal S2000x128 .f32) (ha : RowsOf t.val a A) (ha1 : RowsOf t.val a1 A1) :
    (k0_pay1 (F := Ideal) (k0_pay3 a) (k0_pay4 a1) (k0_pay6 W0) (k0_pay7 W1) (k0_pay11 B) : S2000x200.Idx → EReal)
      = ((cfg0.win 13).blk t).view.read (Elt Ideal) (head2 A A1 W0 W1 (rowBias B)) := by
  obtain ⟨-, -, -, -, -, -, -, -, e0, e1, -⟩ := idx_rows t
  funext j
  show _ = head2 A A1 W0 W1 (rowBias B) (((cfg0.win 13).blk t).view.emb j)
  exact head2_block ha ha1 W0 W1 B j (((cfg0.win 13).blk t).view.emb j)
    (by show win0_13.index t (0 : Fin 2) * 2000 + 1 * (j 0).val = t.val * 2000 + (j 0).val; omega)
    (by show win0_13.index t (1 : Fin 2) * 200 + 1 * (j 1).val = (j 1).val; omega)

/-- What a point stores for result 3, from blocks that are rows `2000·t …` of the node arrays, is block `t` of the
    head of those arrays. -/
theorem block14_eq (t : Fin cfg0.N) (A A1 A2 : NodeArr) (W0 W1 W2 : Vec Ideal S128x200 .f32) (B : Vec Ideal S1x200 .f32) (a a1 a2 : Vec Ideal S2000x128 .f32) (ha : RowsOf t.val a A) (ha1 : RowsOf t.val a1 A1) (ha2 : RowsOf t.val a2 A2) :
    (k0_pay2 (F := Ideal) (k0_pay3 a) (k0_pay4 a1) (k0_pay5 a2) (k0_pay8 W0) (k0_pay9 W1) (k0_pay10 W2) (k0_pay12 B) : S2000x200.Idx → EReal)
      = ((cfg0.win 14).blk t).view.read (Elt Ideal) (head3 A A1 A2 W0 W1 W2 (rowBias B)) := by
  obtain ⟨-, -, -, -, -, -, -, -, -, -, e0, e1⟩ := idx_rows t
  funext j
  show _ = head3 A A1 A2 W0 W1 W2 (rowBias B) (((cfg0.win 14).blk t).view.emb j)
  exact head3_block ha ha1 ha2 W0 W1 W2 B j (((cfg0.win 14).blk t).view.emb j)
    (by show win0_14.index t (0 : Fin 2) * 2000 + 1 * (j 0).val = t.val * 2000 + (j 0).val; omega)
    (by show win0_14.index t (1 : Fin 2) * 200 + 1 * (j 1).val = (j 1).val; omega)

/-! ## The result blocks cover the result arrays -/

/-- An index of result 1 is in point `t`'s block iff each coordinate is in the block's range on its axis. -/
theorem mem_blk12 (t : Fin cfg0.N) (i : S50000x200.Idx) :
    i ∈ ((cfg0.win 12).blk t).view.set ↔ ∀ a : Fin 2, win0_12.index t a * S2000x200.size a ≤ (i a).val ∧ (i a).val < win0_12.index t a * S2000x200.size a + S2000x200.size a := by
  show i ∈ ((View.whole main_v64_0).slice (win0_12.rect t)).set ↔ _
  rw [View.set_slice_whole, Rect.mem_set_unit]
  exact Iff.rfl

/-- Every index of result 1 is in some point's block: row `r` in block `r / 2000`. -/
theorem cover12 (i : S50000x200.Idx) :
    ∃ t : Fin cfg0.N, (cfg0.win 12).flush t = true ∧ i ∈ ((cfg0.win 12).blk t).view.set := by
  have hi0 : (i 0).val < 50000 := (i 0).isLt
  have hi1 : (i 1).val < 200 := (i 1).isLt
  have ht : (i 0).val / 2000 < 25 := by omega
  obtain ⟨-, -, -, -, -, -, e0, e1, -⟩ := idx_rows (⟨(i 0).val / 2000, ht⟩ : Fin cfg0.N)
  have e0' : win0_12.index (⟨(i 0).val / 2000, ht⟩ : Fin cfg0.N) (0 : Fin 2) = (i 0).val / 2000 := e0
  refine ⟨⟨(i 0).val / 2000, ht⟩, flush0_12 _, ?_⟩
  rw [mem_blk12]
  intro a
  match a with
  | ⟨0, _⟩ => show win0_12.index _ (0 : Fin 2) * 2000 ≤ (i 0).val ∧ (i 0).val < win0_12.index _ (0 : Fin 2) * 2000 + 2000; omega
  | ⟨1, _⟩ => show win0_12.index _ (1 : Fin 2) * 200 ≤ (i 1).val ∧ (i 1).val < win0_12.index _ (1 : Fin 2) * 200 + 200; omega

/-- An index of result 2 is in point `t`'s block iff each coordinate is in the block's range on its axis. -/
theorem mem_blk13 (t : Fin cfg0.N) (i : S50000x200.Idx) :
    i ∈ ((cfg0.win 13).blk t).view.set ↔ ∀ a : Fin 2, win0_13.index t a * S2000x200.size a ≤ (i a).val ∧ (i a).val < win0_13.index t a * S2000x200.size a + S2000x200.size a := by
  show i ∈ ((View.whole main_v64_1).slice (win0_13.rect t)).set ↔ _
  rw [View.set_slice_whole, Rect.mem_set_unit]
  exact Iff.rfl

/-- Every index of result 2 is in some point's block: row `r` in block `r / 2000`. -/
theorem cover13 (i : S50000x200.Idx) :
    ∃ t : Fin cfg0.N, (cfg0.win 13).flush t = true ∧ i ∈ ((cfg0.win 13).blk t).view.set := by
  have hi0 : (i 0).val < 50000 := (i 0).isLt
  have hi1 : (i 1).val < 200 := (i 1).isLt
  have ht : (i 0).val / 2000 < 25 := by omega
  obtain ⟨-, -, -, -, -, -, -, -, e0, e1, -⟩ := idx_rows (⟨(i 0).val / 2000, ht⟩ : Fin cfg0.N)
  have e0' : win0_13.index (⟨(i 0).val / 2000, ht⟩ : Fin cfg0.N) (0 : Fin 2) = (i 0).val / 2000 := e0
  refine ⟨⟨(i 0).val / 2000, ht⟩, flush0_13 _, ?_⟩
  rw [mem_blk13]
  intro a
  match a with
  | ⟨0, _⟩ => show win0_13.index _ (0 : Fin 2) * 2000 ≤ (i 0).val ∧ (i 0).val < win0_13.index _ (0 : Fin 2) * 2000 + 2000; omega
  | ⟨1, _⟩ => show win0_13.index _ (1 : Fin 2) * 200 ≤ (i 1).val ∧ (i 1).val < win0_13.index _ (1 : Fin 2) * 200 + 200; omega

/-- An index of result 3 is in point `t`'s block iff each coordinate is in the block's range on its axis. -/
theorem mem_blk14 (t : Fin cfg0.N) (i : S50000x200.Idx) :
    i ∈ ((cfg0.win 14).blk t).view.set ↔ ∀ a : Fin 2, win0_14.index t a * S2000x200.size a ≤ (i a).val ∧ (i a).val < win0_14.index t a * S2000x200.size a + S2000x200.size a := by
  show i ∈ ((View.whole main_v64_2).slice (win0_14.rect t)).set ↔ _
  rw [View.set_slice_whole, Rect.mem_set_unit]
  exact Iff.rfl

/-- Every index of result 3 is in some point's block: row `r` in block `r / 2000`. -/
theorem cover14 (i : S50000x200.Idx) :
    ∃ t : Fin cfg0.N, (cfg0.win 14).flush t = true ∧ i ∈ ((cfg0.win 14).blk t).view.set := by
  have hi0 : (i 0).val < 50000 := (i 0).isLt
  have hi1 : (i 1).val < 200 := (i 1).isLt
  have ht : (i 0).val / 2000 < 25 := by omega
  obtain ⟨-, -, -, -, -, -, -, -, -, -, e0, e1⟩ := idx_rows (⟨(i 0).val / 2000, ht⟩ : Fin cfg0.N)
  have e0' : win0_14.index (⟨(i 0).val / 2000, ht⟩ : Fin cfg0.N) (0 : Fin 2) = (i 0).val / 2000 := e0
  refine ⟨⟨(i 0).val / 2000, ht⟩, flush0_14 _, ?_⟩
  rw [mem_blk14]
  intro a
  match a with
  | ⟨0, _⟩ => show win0_14.index _ (0 : Fin 2) * 2000 ≤ (i 0).val ∧ (i 0).val < win0_14.index _ (0 : Fin 2) * 2000 + 2000; omega
  | ⟨1, _⟩ => show win0_14.index _ (1 : Fin 2) * 200 ≤ (i 1).val ∧ (i 1).val < win0_14.index _ (1 : Fin 2) * 200 + 200; omega

end Cert.ChebHeads.Grid

end
-- ==== Proof.ResultArrays.lean ====
/-
  The three result arrays after the run.

  What point `t` writes back to a result is the body's stored block of the input blocks at `t`; those blocks are rows
  `2000·t …` of `x`, `t1`, `t2` and the whole weights and bias rows as the region finds them, so the written block is
  block `t` of the head of those arrays; the blocks cover the array; so each result array ends holding its head.
-/
import proofs.«131286_j26645977104435_1_alg».proof.Proof.Gen.KernelIdeal.Value
import proofs.«131286_j26645977104435_1_alg».proof.Proof.GridBlocks

set_option maxRecDepth 16384

noncomputable section

namespace Cert.ChebHeads.Arrays

open Cert.KernelIdeal Cert.KernelIdeal.Gen Idealize.ShloMosaic Idealize.ShloMosaic.TcCoe Idealize.SL.Sem Idealize.ShloMosaic.ValueIdx
open Idealize.ShloMosaic.Pipeline (Dat)
open Cert.ChebHeads.Block Cert.ChebHeads.Grid

variable (m : (ℓ : Loc nD τ sig) → Buf (Elt Ideal) ℓ)

/-- Head one of the arrays the region finds. -/
def out1 (c : Dev nD) : S50000x200.Idx → EReal :=
  head1 (V m c main_arg0) (V m c main_arg3) (rowBias (V m c main_v61))
/-- Head two of the arrays the region finds. -/
def out2 (c : Dev nD) : S50000x200.Idx → EReal :=
  head2 (V m c main_arg0) (V m c main_v44) (V m c main_arg5) (V m c main_arg6) (rowBias (V m c main_v62))
/-- Head three of the arrays the region finds. -/
def out3 (c : Dev nD) : S50000x200.Idx → EReal :=
  head3 (V m c main_arg0) (V m c main_v44) (V m c main_v60) (V m c main_arg8) (V m c main_arg9) (V m c main_arg10) (rowBias (V m c main_v63))

/-- What point `t` writes back to result one is block `t` of head one. -/
theorem flushed12_eq (c : Dev nD) (t : Fin cfg0.N) :
    (dats m 0 c).flushed 12 t = ((cfg0.win 12).blk t).view.read (Elt Ideal) (out1 m c) := by
  rw [Cert.KernelIdeal.Value.flushed12]
  unfold out0_12
  rw [View.canon_unit_zero origin2]
  simp only [View.ld_unit_zero (S := S2000x128) origin2, View.ld_unit_zero (S := S128x200) origin2, View.ld_unit_zero (S := S1x200) origin2]
  unfold iblk
  rw [whole3_of t, whole9_of t]
  exact block12_eq t (V m c main_arg0) (V m c main_arg3) (V m c main_v61) _ (rows0_of t (V m c main_arg0))

/-- Result one after the run is head one of the arrays the region found. -/
theorem final12 (c : Dev nD) : (dats m 0 c).arrAt 12 cfg0.N = out1 m c :=
  (dats m 0 c).arrAt_eq_of_cover 12 (out1 m c) (fun t _ => flushed12_eq m c t) cover12

/-- What point `t` writes back to result two is block `t` of head two. -/
theorem flushed13_eq (c : Dev nD) (t : Fin cfg0.N) :
    (dats m 0 c).flushed 13 t = ((cfg0.win 13).blk t).view.read (Elt Ideal) (out2 m c) := by
  rw [Cert.KernelIdeal.Value.flushed13]
  unfold out0_13
  rw [View.canon_unit_zero origin2]
  simp only [View.ld_unit_zero (S := S2000x128) origin2, View.ld_unit_zero (S := S128x200) origin2, View.ld_unit_zero (S := S1x200) origin2]
  unfold iblk
  rw [whole4_of t, whole5_of t, whole10_of t]
  exact block13_eq t (V m c main_arg0) (V m c main_v44) (V m c main_arg5) (V m c main_arg6) (V m c main_v62) _ _
    (rows0_of t (V m c main_arg0)) (rows1_of t (V m c main_v44))

/-- Result two after the run is head two of the arrays the region found. -/
theorem final13 (c : Dev nD) : (dats m 0 c).arrAt 13 cfg0.N = out2 m c :=
  (dats m 0 c).arrAt_eq_of_cover 13 (out2 m c) (fun t _ => flushed13_eq m c t) cover13

/-- What point `t` writes back to result three is block `t` of head three. -/
theorem flushed14_eq (c : Dev nD) (t : Fin cfg0.N) :
    (dats m 0 c).flushed 14 t = ((cfg0.win 14).blk t).view.read (Elt Ideal) (out3 m c) := by
  rw [Cert.KernelIdeal.Value.flushed14]
  unfold out0_14
  rw [View.canon_unit_zero origin2]
  simp only [View.ld_unit_zero (S := S2000x128) origin2, View.ld_unit_zero (S := S128x200) origin2, View.ld_unit_zero (S := S1x200) origin2]
  unfold iblk
  rw [whole6_of t, whole7_of t, whole8_of t, whole11_of t]
  exact block14_eq t (V m c main_arg0) (V m c main_v44) (V m c main_v60) (V m c main_arg8) (V m c main_arg9) (V m c main_arg10) (V m c main_v63) _ _ _
    (rows0_of t (V m c main_arg0)) (rows1_of t (V m c main_v44)) (rows2_of t (V m c main_v60))

/-- Result three after the run is head three of the arrays the region found. -/
theorem final14 (c : Dev nD) : (dats m 0 c).arrAt 14 cfg0.N = out3 m c :=
  (dats m 0 c).arrAt_eq_of_cover 14 (out3 m c) (fun t _ => flushed14_eq m c t) cover14

end Cert.ChebHeads.Arrays

end
-- ==== Proof.EntryArrays.lean ====
/-
  What the kernel's region finds in the arrays it did not get as arguments.

  Before the region the kernel's @main computes, on the host, the same operations as the reference: the degree
  normalisation of the edge weights, the first propagation `t1` (a scatter-add over the edges of the weighted
  gathered rows of `x`) and the second `t2 = 2·prop(t1) − x`; and it reshapes each bias from [200] to a row [1, 200].
  So the array the region stages as its second node block is the reference's `t1` stage of the same three
  arguments (`x`, the edge list, the edge weights), the third is its `t2` stage, and bias row `(0, q)` is bias
  entry `q`. The scatter and gather operations are never opened: the two programs' operation terms are the same
  term. The only thing between them is the transport of a value along "this buffer's type is the value's type"
  around the call of the helper that computes `where(deg > 0, rsqrt deg, 0)`; that transport is the identity.
-/
import proofs.«131286_j26645977104435_1_alg».proof.Proof.Gen.KernelIdeal.Frame
import proofs.«131286_j26645977104435_1_alg».proof.Proof.Gen.ReferenceIdeal.Read
import Idealize.ShloMosaic.Lib.StableHlo.Run
import Idealize.ShloMosaic.Lib.Pipeline.Value
import Idealize.ShloMosaic.Lib.ValueIdx

noncomputable section

namespace Cert.ChebHeads.Entry

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-! ## Transport along a buffer's type is the identity -/

theorem toBuf_where_result (p1 p2 p3) (v : (⟨S50000, .f32⟩ : BufTy).Contents (Elt Ideal)) :
    (TRef.of (sig := sig) (T := ⟨S50000, .f32⟩) main_v14 p1 p2 p3).toBuf v = v := rfl
theorem ofBuf_where_cond (p1 p2 p3) (v : (⟨S50000, .i1⟩ : BufTy).Contents (Elt Ideal)) :
    (TRef.of (sig := sig) (T := ⟨S50000, .i1⟩) main_v12 p1 p2 p3).ofBuf v = v := rfl
theorem ofBuf_where_then (p1 p2 p3) (v : (⟨S50000, .f32⟩ : BufTy).Contents (Elt Ideal)) :
    (TRef.of (sig := sig) (T := ⟨S50000, .f32⟩) main_v13 p1 p2 p3).ofBuf v = v := rfl
theorem ofBuf_where_zeros (p1 p2 p3) (v : (⟨S50000, .f32⟩ : BufTy).Contents (Elt Ideal)) :
    (TRef.of (sig := sig) (T := ⟨S50000, .f32⟩) main_call0_v1 p1 p2 p3).ofBuf v = v := rfl
theorem toBuf_where_zeros (p1 p2 p3) (v : (⟨S50000, .f32⟩ : BufTy).Contents (Elt Ideal)) :
    (TRef.of (sig := sig) (T := ⟨S50000, .f32⟩) main_call0_v1 p1 p2 p3).toBuf v = v := rfl
theorem ofBuf_where_zero (p1 p2 p3) (v : (⟨S_, .f32⟩ : BufTy).Contents (Elt Ideal)) :
    (TRef.of (sig := sig) (T := ⟨S_, .f32⟩) main_call0_v0 p1 p2 p3).ofBuf v = v := rfl
theorem toBuf_where_zero (p1 p2 p3) (v : (⟨S_, .f32⟩ : BufTy).Contents (Elt Ideal)) :
    (TRef.of (sig := sig) (T := ⟨S_, .f32⟩) main_call0_v0 p1 p2 p3).toBuf v = v := rfl
theorem ofBuf_where_else (p1 p2 p3) (v : (⟨S_, .f32⟩ : BufTy).Contents (Elt Ideal)) :
    (TRef.of (sig := sig) (T := ⟨S_, .f32⟩) main_cst_1 p1 p2 p3).ofBuf v = v := rfl

/-! ## The two propagations -/

set_option maxHeartbeats 2000000 in
/-- The region's second node array is the reference's first propagation of the same arguments. -/
theorem entry_t1 (c : Dev nD) :
    V m c main_v44 = Cert.ReferenceIdeal.Read.val_main_v44 (F := Ideal) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  rw [toBuf_where_result, ofBuf_where_cond, ofBuf_where_then, ofBuf_where_zeros, toBuf_where_zeros, ofBuf_where_zero, toBuf_where_zero, ofBuf_where_else]
  rfl

set_option maxHeartbeats 2000000 in
/-- The region's third node array is the reference's second propagation of the same arguments. -/
theorem entry_t2 (c : Dev nD) :
    V m c main_v60 = Cert.ReferenceIdeal.Read.val_main_v60 (F := Ideal) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  rw [toBuf_where_result, ofBuf_where_cond, ofBuf_where_then, ofBuf_where_zeros, toBuf_where_zeros, ofBuf_where_zero, toBuf_where_zero, ofBuf_where_else]
  rfl

/-! ## The bias rows -/

/-- A bias reshaped to a row, read at `(0, q)`: entry `q`. -/
theorem biasRow_apply (b : (⟨S200, .f32⟩ : BufTy).Contents (Elt Ideal)) (q : Fin 200) :
    shapeCast S1x200 b shapeCasts_S200_S1x200 (ix2 (0 : Fin 1) q) = b (ix1 q) :=
  shapeCast_apply b shapeCasts_S200_S1x200 (ix2 (0 : Fin 1) q) (ix1 q) (by
    rw [Shape.rowMajor_val_one, Shape.rowMajor_val_two]
    show q.val = 0 * 200 + q.val
    omega)

set_option maxHeartbeats 2000000 in
/-- Head one's bias row as the region finds it. -/
theorem entry_b1 (c : Dev nD) :
    V m c main_v61 = shapeCast S1x200 (m ((c : Thread nD τ).loc main_arg4)) shapeCasts_S200_S1x200 := by
  dsimp only [V]
  simp only [hostOps0, hostOps0_1, hostOps0_2, List.flatten_cons, List.flatten_nil, List.append_nil, List.cons_append, List.nil_append]
  after_results_simp
  rfl

set_option maxHeartbeats 2000000 in
/-- Head two's bias row as the region finds it. -/
theorem entry_b2 (c : Dev nD) :
    V m c main_v62 = shapeCast S1x200 (m ((c : Thread nD τ).loc main_arg7)) shapeCasts_S200_S1x200 := by
  dsimp only [V]
  simp only [hostOps0, hostOps0_1, hostOps0_2, List.flatten_cons, List.flatten_nil, List.append_nil, List.cons_append, List.nil_append]
  after_results_simp
  rfl

set_option maxHeartbeats 2000000 in
/-- Head three's bias row as the region finds it. -/
theorem entry_b3 (c : Dev nD) :
    V m c main_v63 = shapeCast S1x200 (m ((c : Thread nD τ).loc main_arg11)) shapeCasts_S200_S1x200 := by
  dsimp only [V]
  simp only [hostOps0, hostOps0_1, hostOps0_2, List.flatten_cons, List.flatten_nil, List.append_nil, List.cons_append, List.nil_append]
  after_results_simp
  rfl

end Cert.ChebHeads.Entry

end
-- ==== Proof.KernelHeads.lean ====
/-
  The kernel's three results as heads of its arguments.

  After the run each result array is its head of the arrays the region found. The region finds `x` and the six
  weights as launched, the two propagations as the reference's propagation stages of `x`, the edge list and the edge
  weights, and each bias as the row that carries it. So each result is the specification's head of the launched
  arguments and those two stages.
-/
import proofs.«131286_j26645977104435_1_alg».proof.Proof.ResultArrays
import proofs.«131286_j26645977104435_1_alg».proof.Proof.EntryArrays

noncomputable section

namespace Cert.ChebHeads.Kernel

open Cert.KernelIdeal Cert.KernelIdeal.Gen Idealize.ShloMosaic Idealize.ShloMosaic.TcCoe Idealize.SL.Sem Idealize.ShloMosaic.ValueIdx
open Cert.ChebHeads.Arrays Cert.ChebHeads.Entry Cert.ChebHeads.Grid

variable (m : (ℓ : Loc nD τ sig) → Buf (Elt Ideal) ℓ)

/-- The bias carried by the reshaped row is the bias. -/
theorem rowBias_reshape (b : (⟨S200, .f32⟩ : BufTy).Contents (Elt Ideal)) :
    rowBias (shapeCast S1x200 b shapeCasts_S200_S1x200) = b :=
  funext fun d => (biasRow_apply b (d 0)).trans (congrArg b (eq_ix1 d).symm)

/-- The first propagation, as the reference computes it from the launched arguments. -/
abbrev t1 (c : Dev nD) : NodeArr :=
  Cert.ReferenceIdeal.Read.val_main_v44 (F := Ideal) (m ((c : Thread nD τ).loc main_arg0)) (m ((c : Thread nD τ).loc main_arg1)) (m ((c : Thread nD τ).loc main_arg2))
/-- The second propagation, as the reference computes it from the launched arguments. -/
abbrev t2 (c : Dev nD) : NodeArr :=
  Cert.ReferenceIdeal.Read.val_main_v60 (F := Ideal) (m ((c : Thread nD τ).loc main_arg0)) (m ((c : Thread nD τ).loc main_arg1)) (m ((c : Thread nD τ).loc main_arg2))

theorem result1 (c : Dev nD) :
    (dats m 0 c).arrAt 12 cfg0.N
      = head1 (m ((c : Thread nD τ).loc main_arg0)) (m ((c : Thread nD τ).loc main_arg3)) (m ((c : Thread nD τ).loc main_arg4)) := by
  rw [final12]; unfold out1
  rw [V_main_arg0, V_main_arg3, entry_b1, rowBias_reshape]

theorem result2 (c : Dev nD) :
    (dats m 0 c).arrAt 13 cfg0.N
      = head2 (m ((c : Thread nD τ).loc main_arg0)) (t1 m c) (m ((c : Thread nD τ).loc main_arg5)) (m ((c : Thread nD τ).loc main_arg6))
          (m ((c : Thread nD τ).loc main_arg7)) := by
  rw [final13]; unfold out2
  rw [V_main_arg0, V_main_arg5, V_main_arg6, entry_t1, entry_b2, rowBias_reshape]

theorem result3 (c : Dev nD) :
    (dats m 0 c).arrAt 14 cfg0.N
      = head3 (m ((c : Thread nD τ).loc main_arg0)) (t1 m c) (t2 m c) (m ((c : Thread nD τ).loc main_arg8)) (m ((c : Thread nD τ).loc main_arg9))
          (m ((c : Thread nD τ).loc main_arg10)) (m ((c : Thread nD τ).loc main_arg11)) := by
  rw [final14]; unfold out3
  rw [V_main_arg0, V_main_arg8, V_main_arg9, V_main_arg10, entry_t1, entry_t2, entry_b3, rowBias_reshape]

end Cert.ChebHeads.Kernel

end
-- ==== Proof.RefHeads.lean ====
/-
  The reference's three results are the three heads.

  The reference forms each head on the host: `dot_general` products of `x`, of the first propagation `t1` and of
  the second propagation `t2` with the weights, added left to right, plus the bias broadcast over the nodes. Read at
  an entry `(r, c)`, a product is the sum over the 128 channels and the broadcast bias is `b c`, so each result is
  the specification's head of `x`, `t1`, `t2`, where `t1` and `t2` are the host stages that compute the
  propagations — functions of `x`, the edge list and the edge weights that are never opened here.
-/
import proofs.«131286_j26645977104435_1_alg».proof.Proof.Gen.ReferenceIdeal.Read
import proofs.«131286_j26645977104435_1_alg».proof.Proof.ChebSpec

noncomputable section

namespace Cert.ChebHeads.Ref

open Cert.ReferenceIdeal Cert.ReferenceIdeal.Read Idealize.ShloMosaic Idealize.ShloMosaic.TcCoe Idealize.ShloMosaic.ValueIdx
open scoped BigOperators

/-! ## The printed index maps are the coordinates -/

/-- Product 61's left index at `(r, c)`, channel `k`: row `r`, channel `k`. -/
theorem lrow61 (i : S50000x200.Idx) (k : Fin 128) : lidx_main_v61 i k = ix2 (i 0) k :=
  funext fun a => by match a with | ⟨0, _⟩ => rfl | ⟨1, _⟩ => rfl
/-- Product 61's right index at `(r, c)`, channel `k`: channel `k`, column `c`. -/
theorem rcol61 (i : S50000x200.Idx) (k : Fin 128) : ridx_main_v61 i k = ix2 k (i 1) :=
  funext fun a => by match a with | ⟨0, _⟩ => rfl | ⟨1, _⟩ => rfl
/-- Product 65's left index at `(r, c)`, channel `k`: row `r`, channel `k`. -/
theorem lrow65 (i : S50000x200.Idx) (k : Fin 128) : lidx_main_v65 i k = ix2 (i 0) k :=
  funext fun a => by match a with | ⟨0, _⟩ => rfl | ⟨1, _⟩ => rfl
/-- Product 65's right index at `(r, c)`, channel `k`: channel `k`, column `c`. -/
theorem rcol65 (i : S50000x200.Idx) (k : Fin 128) : ridx_main_v65 i k = ix2 k (i 1) :=
  funext fun a => by match a with | ⟨0, _⟩ => rfl | ⟨1, _⟩ => rfl
/-- Product 66's left index at `(r, c)`, channel `k`: row `r`, channel `k`. -/
theorem lrow66 (i : S50000x200.Idx) (k : Fin 128) : lidx_main_v66 i k = ix2 (i 0) k :=
  funext fun a => by match a with | ⟨0, _⟩ => rfl | ⟨1, _⟩ => rfl
/-- Product 66's right index at `(r, c)`, channel `k`: channel `k`, column `c`. -/
theorem rcol66 (i : S50000x200.Idx) (k : Fin 128) : ridx_main_v66 i k = ix2 k (i 1) :=
  funext fun a => by match a with | ⟨0, _⟩ => rfl | ⟨1, _⟩ => rfl
/-- Product 71's left index at `(r, c)`, channel `k`: row `r`, channel `k`. -/
theorem lrow71 (i : S50000x200.Idx) (k : Fin 128) : lidx_main_v71 i k = ix2 (i 0) k :=
  funext fun a => by match a with | ⟨0, _⟩ => rfl | ⟨1, _⟩ => rfl
/-- Product 71's right index at `(r, c)`, channel `k`: channel `k`, column `c`. -/
theorem rcol71 (i : S50000x200.Idx) (k : Fin 128) : ridx_main_v71 i k = ix2 k (i 1) :=
  funext fun a => by match a with | ⟨0, _⟩ => rfl | ⟨1, _⟩ => rfl
/-- Product 72's left index at `(r, c)`, channel `k`: row `r`, channel `k`. -/
theorem lrow72 (i : S50000x200.Idx) (k : Fin 128) : lidx_main_v72 i k = ix2 (i 0) k :=
  funext fun a => by match a with | ⟨0, _⟩ => rfl | ⟨1, _⟩ => rfl
/-- Product 72's right index at `(r, c)`, channel `k`: channel `k`, column `c`. -/
theorem rcol72 (i : S50000x200.Idx) (k : Fin 128) : ridx_main_v72 i k = ix2 k (i 1) :=
  funext fun a => by match a with | ⟨0, _⟩ => rfl | ⟨1, _⟩ => rfl
/-- Product 74's left index at `(r, c)`, channel `k`: row `r`, channel `k`. -/
theorem lrow74 (i : S50000x200.Idx) (k : Fin 128) : lidx_main_v74 i k = ix2 (i 0) k :=
  funext fun a => by match a with | ⟨0, _⟩ => rfl | ⟨1, _⟩ => rfl
/-- Product 74's right index at `(r, c)`, channel `k`: channel `k`, column `c`. -/
theorem rcol74 (i : S50000x200.Idx) (k : Fin 128) : ridx_main_v74 i k = ix2 k (i 1) :=
  funext fun a => by match a with | ⟨0, _⟩ => rfl | ⟨1, _⟩ => rfl
/-- The bias broadcast to a row (62) and then over the nodes (63) reads channel `c` at `(r, c)`. -/
theorem bcol63 (i : S50000x200.Idx) : idx_main_v62 (idx_main_v63 i) = ix1 (i 1) :=
  funext fun a => by match a with | ⟨0, _⟩ => rfl
/-- The bias broadcast to a row (68) and then over the nodes (69) reads channel `c` at `(r, c)`. -/
theorem bcol69 (i : S50000x200.Idx) : idx_main_v68 (idx_main_v69 i) = ix1 (i 1) :=
  funext fun a => by match a with | ⟨0, _⟩ => rfl
/-- The bias broadcast to a row (76) and then over the nodes (77) reads channel `c` at `(r, c)`. -/
theorem bcol77 (i : S50000x200.Idx) : idx_main_v76 (idx_main_v77 i) = ix1 (i 1) :=
  funext fun a => by match a with | ⟨0, _⟩ => rfl

/-! ## The three results -/

/-- The propagation `t1` of the reference: its host stage, as a function of `x`, the edges and their weights. -/
abbrev t1 (x0 : (⟨S50000x128, .f32⟩ : BufTy).Contents (Elt Ideal)) (x1 : (⟨S2x800000, .i32⟩ : BufTy).Contents (Elt Ideal)) (x2 : (⟨S800000, .f32⟩ : BufTy).Contents (Elt Ideal)) :
    (⟨S50000x128, .f32⟩ : BufTy).Contents (Elt Ideal) := val_main_v44 (F := Ideal) x0 x1 x2
/-- The propagation `t2 = 2·prop(t1) − x` of the reference: its host stage. -/
abbrev t2 (x0 : (⟨S50000x128, .f32⟩ : BufTy).Contents (Elt Ideal)) (x1 : (⟨S2x800000, .i32⟩ : BufTy).Contents (Elt Ideal)) (x2 : (⟨S800000, .f32⟩ : BufTy).Contents (Elt Ideal)) :
    (⟨S50000x128, .f32⟩ : BufTy).Contents (Elt Ideal) := val_main_v60 (F := Ideal) x0 x1 x2

/-- The first result is head one of `x`. -/
theorem result1 (x0 : (⟨S50000x128, .f32⟩ : BufTy).Contents (Elt Ideal)) (x3 : (⟨S128x200, .f32⟩ : BufTy).Contents (Elt Ideal)) (x4 : (⟨S200, .f32⟩ : BufTy).Contents (Elt Ideal)) :
    val_main_v64 (F := Ideal) x0 x3 x4 = head1 x0 x3 x4 := by
  funext i
  rw [val_main_v64_apply, val_main_v61_apply, val_main_v63_apply, val_main_v62_apply]
  simp only [lrow61, rcol61, bcol63, Ideal.addf_def]
  rfl

/-- The second result is head two of `x` and `t1`. -/
theorem result2 (x0 : (⟨S50000x128, .f32⟩ : BufTy).Contents (Elt Ideal)) (x1 : (⟨S2x800000, .i32⟩ : BufTy).Contents (Elt Ideal)) (x2 : (⟨S800000, .f32⟩ : BufTy).Contents (Elt Ideal))
    (x5 x6 : (⟨S128x200, .f32⟩ : BufTy).Contents (Elt Ideal)) (x7 : (⟨S200, .f32⟩ : BufTy).Contents (Elt Ideal)) :
    val_main_v70 (F := Ideal) x0 x1 x2 x5 x6 x7 = head2 x0 (t1 x0 x1 x2) x5 x6 x7 := by
  funext i
  rw [val_main_v70_apply, val_main_v67_apply, val_main_v65_apply, val_main_v66_apply, val_main_v69_apply, val_main_v68_apply]
  simp only [lrow65, rcol65, lrow66, rcol66, bcol69, Ideal.addf_def]
  rfl

/-- The third result is head three of `x`, `t1` and `t2`. -/
theorem result3 (x0 : (⟨S50000x128, .f32⟩ : BufTy).Contents (Elt Ideal)) (x1 : (⟨S2x800000, .i32⟩ : BufTy).Contents (Elt Ideal)) (x2 : (⟨S800000, .f32⟩ : BufTy).Contents (Elt Ideal))
    (x8 x9 x10 : (⟨S128x200, .f32⟩ : BufTy).Contents (Elt Ideal)) (x11 : (⟨S200, .f32⟩ : BufTy).Contents (Elt Ideal)) :
    val_main_v78 (F := Ideal) x0 x1 x2 x8 x9 x10 x11 = head3 x0 (t1 x0 x1 x2) (t2 x0 x1 x2) x8 x9 x10 x11 := by
  funext i
  rw [val_main_v78_apply, val_main_v75_apply, val_main_v73_apply, val_main_v71_apply, val_main_v72_apply, val_main_v74_apply,
    val_main_v77_apply, val_main_v76_apply]
  simp only [lrow71, rcol71, lrow72, rcol72, lrow74, rcol74, bcol77, Ideal.addf_def]
  rfl

end Cert.ChebHeads.Ref

end
-- ==== Proof.lean ====
/-
  Three Chebyshev heads of a graph convolution: the Pallas kernel against its jnp reference, over the extended reals.

  Both programs first compute, with the same host operations, the symmetric normalisation of the edge weights and the
  two propagations `t1 = L̂ x` and `t2 = 2 L̂ t1 − x` (scatter-adds over the edges of weighted gathered rows). The
  reference then forms `s1 = x·W₁₀ + b₁`, `s2 = (x·W₂₀ + t1·W₂₁) + b₂`, `s3 = ((x·W₃₀ + t1·W₃₁) + t2·W₃₂) + b₃` with host
  matrix products; the kernel forms the same three sums 2000 node rows at a time, over 25 grid points, each product
  from a zero accumulator after a cast of its operands to bf16. At the ideal values a cast is the identity and a
  product is the plain sum over the 128 channels, so block by block the kernel writes exactly the rows of the
  reference's three results; the 25 blocks cover the 50000 rows. No algebraic law beyond "the same sum" is used, and
  nothing is asked of the inputs: the propagations are the same term of the same arguments in both programs.

  The frames of the two kernel programs are the generated ones; the reference's frame is its generated run with the
  results dropped; the idealization rewrote nothing, so `preserves` has nothing to show.
-/
import proofs.«131286_j26645977104435_1_alg».proof.Defs
import proofs.«131286_j26645977104435_1_alg».proof.Proof.Gen.Kernel
import proofs.«131286_j26645977104435_1_alg».proof.Proof.Gen.Kernel.Skeleton
import proofs.«131286_j26645977104435_1_alg».proof.Proof.Gen.Kernel.Launch
import proofs.«131286_j26645977104435_1_alg».proof.Proof.Gen.Kernel.Points
import proofs.«131286_j26645977104435_1_alg».proof.Proof.Gen.Kernel.Frame
import proofs.«131286_j26645977104435_1_alg».proof.Proof.Gen.KernelIdeal
import proofs.«131286_j26645977104435_1_alg».proof.Proof.Gen.KernelIdeal.Skeleton
import proofs.«131286_j26645977104435_1_alg».proof.Proof.Gen.KernelIdeal.Launch
import proofs.«131286_j26645977104435_1_alg».proof.Proof.Gen.KernelIdeal.Points
import proofs.«131286_j26645977104435_1_alg».proof.Proof.Gen.KernelIdeal.Frame
import proofs.«131286_j26645977104435_1_alg».proof.Proof.Gen.ReferenceIdeal
import proofs.«131286_j26645977104435_1_alg».proof.Proof.Gen.Pre_finite_inputs
import proofs.«131286_j26645977104435_1_alg».proof.Proof.Gen.KernelIdeal.Value
import proofs.«131286_j26645977104435_1_alg».proof.Proof.Gen.ReferenceIdeal.Run
import proofs.«131286_j26645977104435_1_alg».proof.Proof.Gen.ReferenceIdeal.Read
import proofs.«131286_j26645977104435_1_alg».proof.Proof.KernelHeads
import proofs.«131286_j26645977104435_1_alg».proof.Proof.RefHeads
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments both programs end with the three heads of those arguments: the kernel's
    result arrays by their blocks, the reference's by reading its host operations at an entry. -/
theorem algebraic : Cert.algebraic_KernelIdeal_ReferenceIdeal := by
  intro m ρ m' ρ' _ hagree
  refine ⟨_, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2.1.trans ?_, (h c).2.2.2⟩
  · rw [Cert.ReferenceIdeal.Read.val_main_v64_eq, Cert.ChebHeads.Ref.result1, Cert.ChebHeads.Kernel.result1, a0, a3, a4]
  · rw [Cert.ReferenceIdeal.Read.val_main_v70_eq, Cert.ChebHeads.Ref.result2, Cert.ChebHeads.Kernel.result2, a0, a1, a2, a5, a6, a7]
  · rw [Cert.ReferenceIdeal.Read.val_main_v78_eq, Cert.ChebHeads.Ref.result3, Cert.ChebHeads.Kernel.result3, a0, a1, a2, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
